-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x8 : Shape := ⟨3, ![256, 256, 8]⟩
abbrev S8000x64 : Shape := ⟨2, ![8000, 64]⟩
abbrev S_ : Shape := ⟨0, ![]⟩

class Facts : Prop where
  bcast_S_S8000x64 : S_.BroadcastsInDim S8000x64 (![] : Fin 0 → Fin S8000x64.rank)
  reducesTo_S8000x64_S_d0_1 : S8000x64.ReducesTo [0, 1] S_
  h_S_ : 0 < S_.numel
  bcast_S_S256x256x8 : S_.BroadcastsInDim S256x256x8 (![] : Fin 0 → Fin S256x256x8.rank)
  reducesTo_S256x256x8_S_d0_1_2 : S256x256x8.ReducesTo [0, 1, 2] S_

variable [Facts]

def fn {F : FTy → Type} [FloatOps F] (main_arg0 : IVec S256x256x8 32) (main_arg1 : FVec F S8000x64 .f32) : IVec S_ 1 :=
  let main_v0 : FVec F S8000x64 .f32 := Host.absf main_arg1
  let main_cst : FVec F S_ .f32 := constant S_ .f32 0x7F800000#32
  let main_v1 : FVec F S8000x64 .f32 := broadcastInDim S8000x64 ![] bcast_S_S8000x64 main_cst
  let main_v2 : IVec S8000x64 1 := cmpf .olt main_v0 main_v1
  let main_c : IVec S_ 1 := constantI S_ 1 1#1
  let main_v3 : IVec S_ 1 := (fun x v => Host.reduce IntOp.andi x v reducesTo_S8000x64_S_d0_1 h_S_) main_v2 main_c
  let main_c_0 : IVec S_ 32 := constantI S_ 32 0#32
  let main_v4 : IVec S256x256x8 32 := broadcastInDim S256x256x8 ![] bcast_S_S256x256x8 main_c_0
  let main_v5 : IVec S256x256x8 1 := cmpi .sge main_arg0 main_v4
  let main_c_1 : IVec S_ 1 := constantI S_ 1 1#1
  let main_v6 : IVec S_ 1 := (fun x v => Host.reduce IntOp.andi x v reducesTo_S256x256x8_S_d0_1_2 h_S_) main_v5 main_c_1
  let main_v7 : IVec S_ 1 := andi main_v3 main_v6
  main_v7
-- ==== Kernel.lean ====
abbrev S256x256x8 : Shape := ⟨3, ![256, 256, 8]⟩
abbrev S8000x64 : Shape := ⟨2, ![8000, 64]⟩
abbrev S_ : Shape := ⟨0, ![]⟩
abbrev S524288x1 : Shape := ⟨2, ![524288, 1]⟩
abbrev S524288x64 : Shape := ⟨2, ![524288, 64]⟩
abbrev S256x1 : Shape := ⟨2, ![256, 1]⟩
abbrev S256x64 : Shape := ⟨2, ![256, 64]⟩
abbrev S256x8000 : Shape := ⟨2, ![256, 8000]⟩
abbrev S256x256x8x64 : Shape := ⟨4, ![256, 256, 8, 64]⟩
abbrev S256x256x512 : Shape := ⟨3, ![256, 256, 512]⟩

abbrev nBuf : Space → Nat
  | .hbm => 15
  | .vmem => 5
  | .smem => 0
  | _ => 0

abbrev bufTy : (tb : Table) → Fin (tcTables nBuf tb) → BufTy
  | .hbm, ⟨0, _⟩ => ⟨S256x256x8, .i32⟩
  | .hbm, ⟨1, _⟩ => ⟨S8000x64, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S256x256x8, .i32⟩
  | .hbm, ⟨6, _⟩ => ⟨S256x256x8, .i32⟩
  | .hbm, ⟨7, _⟩ => ⟨S_, .i32⟩
  | .hbm, ⟨8, _⟩ => ⟨S256x256x8, .i32⟩
  | .hbm, ⟨9, _⟩ => ⟨S256x256x8, .i32⟩
  | .hbm, ⟨10, _⟩ => ⟨S524288x1, .i32⟩
  | .hbm, ⟨11, _⟩ => ⟨S8000x64, .bf16⟩
  | .hbm, ⟨12, _⟩ => ⟨S524288x64, .f32⟩
  | .hbm, ⟨13, _⟩ => ⟨S256x256x8x64, .f32⟩
  | .hbm, ⟨14, _⟩ => ⟨S256x256x512, .f32⟩
  | .local _ .vmem, ⟨0, _⟩ => ⟨S256x1, .i32⟩
  | .local _ .vmem, ⟨1, _⟩ => ⟨S256x1, .i32⟩
  | .local _ .vmem, ⟨2, _⟩ => ⟨S8000x64, .bf16⟩
  | .local _ .vmem, ⟨3, _⟩ => ⟨S256x64, .f32⟩
  | .local _ .vmem, ⟨4, _⟩ => ⟨S256x64, .f32⟩
  | _, _ => ⟨S256x256x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8000x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256x256x8 : S_.BroadcastsInDim S256x256x8 (![] : Fin 0 → Fin S256x256x8.rank)
  shapeCasts_S256x256x8_S524288x1 : S256x256x8.ShapeCasts S524288x1
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x8000 : S256x1.Broadcasts S256x8000
  iota_S256x8000_d1_w32 : S256x8000.Iotas .tc 32 [1]
  natLt_1_32 : 1 < 32
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S256x64_S256x64_0_0 : ∀ a, (![0, 0] : Fin 2 → Nat) a + S256x64.size a ≤ S256x64.size a
  h_S256x64 : 0 < S256x64.numel
  shapeCasts_S524288x64_S256x256x8x64 : S524288x64.ShapeCasts S256x256x8x64
  shapeCasts_S256x256x8x64_S256x256x512 : S256x256x8x64.ShapeCasts S256x256x512
  dot_S256x8000_S8000x64_S256x64_1_0_0_1_n_n_wf : DotDims.WF S256x8000 S8000x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S524288x1.size a
  hwx0_0 : ∀ i : grid0.Coords, EltTy.bits .i32 = 32 ∨ (Rect.block (s := S524288x1) S256x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S8000x64.size a
  hwx0_1 : ∀ i : grid0.Coords, EltTy.bits .bf16 = 32 ∨ (Rect.block (s := S8000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S524288x64.size a
  hwx0_2 : ∀ i : grid0.Coords, EltTy.bits .f32 = 32 ∨ (Rect.block (s := S524288x64) S256x64.size (cc0_transform_2 i) (hinb0_2 i)).WholeWords (EltTy.packing .f32)

variable [Facts₀]

def dot_S256x8000_S8000x64_S256x64_1_0_0_1_n_n : DotDims S256x8000 S8000x64 S256x64 where
  lhsContracting := [1]
  rhsContracting := [0]
  lhsNonContracting := [0]
  rhsNonContracting := [1]
  lhsBatch := []
  rhsBatch := []
  wf := dot_S256x8000_S8000x64_S256x64_1_0_0_1_n_n_wf

abbrev win0_0 : Pipeline.Window sig grid0 :=
  Pipeline.Window.ofSpec (Memref.whole main_v1) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x256x8 : Shape := ⟨3, ![256, 256, 8]⟩
abbrev S8000x64 : Shape := ⟨2, ![8000, 64]⟩
abbrev S_ : Shape := ⟨0, ![]⟩
abbrev S256x256x8x1 : Shape := ⟨4, ![256, 256, 8, 1]⟩
abbrev S256x256x8x64 : Shape := ⟨4, ![256, 256, 8, 64]⟩
abbrev S256x256x512 : Shape := ⟨3, ![256, 256, 512]⟩

abbrev nBuf : Space → Nat
  | .hbm => 12
  | .vmem => 0
  | .smem => 0
  | _ => 0

abbrev bufTy : (tb : Table) → Fin (tcTables nBuf tb) → BufTy
  | .hbm, ⟨0, _⟩ => ⟨S256x256x8, .i32⟩
  | .hbm, ⟨1, _⟩ => ⟨S8000x64, .f32⟩
  | .hbm, ⟨2, _⟩ => ⟨S_, .i32⟩
  | .hbm, ⟨3, _⟩ => ⟨S256x256x8, .i32⟩
  | .hbm, ⟨4, _⟩ => ⟨S256x256x8, .i1⟩
  | .hbm, ⟨5, _⟩ => ⟨S_, .i32⟩
  | .hbm, ⟨6, _⟩ => ⟨S256x256x8, .i32⟩
  | .hbm, ⟨7, _⟩ => ⟨S256x256x8, .i32⟩
  | .hbm, ⟨8, _⟩ => ⟨S256x256x8, .i32⟩
  | .hbm, ⟨9, _⟩ => ⟨S256x256x8x1, .i32⟩
  | .hbm, ⟨10, _⟩ => ⟨S256x256x8x64, .f32⟩
  | .hbm, ⟨11, _⟩ => ⟨S256x256x512, .f32⟩
  | _, _ => ⟨S256x256x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S_S256x256x8 : S_.BroadcastsInDim S256x256x8 (![] : Fin 0 → Fin S256x256x8.rank)
  bcast_S256x256x8_S256x256x8x1_0_1_2 : S256x256x8.BroadcastsInDim S256x256x8x1 (![0, 1, 2] : Fin 3 → Fin S256x256x8x1.rank)
  shapeCasts_S256x256x8x64_S256x256x512 : S256x256x8x64.ShapeCasts S256x256x512
  gather_S8000x64_S256x256x8x1_S256x256x8x64_3_0_n_n_0_3_164_wf : GatherDims.WF S8000x64 S256x256x8x1 S256x256x8x64 [3] [0] [] [0] [] 3 ![1, 64]

variable [Facts₀]

def gather_S8000x64_S256x256x8x1_S256x256x8x64_3_0_n_n_0_3_164 : GatherDims S8000x64 S256x256x8x1 S256x256x8x64 where
  offsetDims := [3]
  collapsedSliceDims := [0]
  operandBatchingDims := []
  startIndicesBatchingDims := []
  startIndexMap := [0]
  indexVectorDim := 3
  sliceSizes := ![1, 64]
  wf := gather_S8000x64_S256x256x8x1_S256x256x8x64_3_0_n_n_0_3_164_wf

class Facts : Prop extends Facts₀ where

variable [Facts]
-- ==== Proof.RowLookup.lean ====
/-
  Looking up a row of a table by an integer id: the facts about 32-bit words and about a one-hot sum
  that the kernel's and the reference's two ways of choosing the row come down to.

  The kernel clamps the id into [0, 7999] and multiplies the one-hot row of the clamped id with the table;
  the reference adds 8000 to a negative id and lets the gather clamp what it reads into [0, 7999].
  For an id that is not negative both choose row min(id, 7999).
-/
import Idealize.ShloMosaic.Lib.ValueIdx
import Idealize.ShloMosaic.PureOps.Ideal

open scoped BigOperators

namespace RowLookup

open Idealize.ShloMosaic

/-! ## Words that are not negative -/

/-- A word whose signed reading is not negative has its signed and unsigned readings equal, below 2^31. -/
theorem nonneg_word (x : BitVec 32) (hx : 0 ≤ x.toInt) : x.toNat < 2 ^ 31 ∧ x.toInt = (x.toNat : Int) := by
  have hlt := x.isLt
  rw [BitVec.toInt_eq_toNat_cond] at hx ⊢
  split at hx
  · rename_i h; exact ⟨by omega, by rw [if_pos h]⟩
  · omega

/-- The signed comparison `x ≥ 0` holding says the signed reading is not negative. -/
theorem of_sge_zero (x : BitVec 32) (h : IntOp.cmpi .sge x 0#32 = 1#1) : 0 ≤ x.toInt := by
  have h' : BitVec.ofBool ((0#32 : BitVec 32).sle x) = 1#1 := h
  cases hb : (0#32 : BitVec 32).sle x
  · rw [hb] at h'; exact absurd h' (by decide)
  · rw [BitVec.sle_eq_decide, decide_eq_true_iff] at hb
    rwa [show (0#32 : BitVec 32).toInt = 0 from by decide] at hb

/-- Such a word is not below zero in the signed order. -/
theorem not_slt_zero (x : BitVec 32) (hx : 0 ≤ x.toInt) : x.slt 0#32 = false := by
  rw [BitVec.slt_eq_decide, decide_eq_false_iff_not, show (0#32 : BitVec 32).toInt = 0 from by decide]
  omega

/-- THE KERNEL'S ROW: clamping a non-negative id into [0, 7999] leaves min(id, 7999). -/
theorem clip_toNat (x : BitVec 32) (hx : 0 ≤ x.toInt) :
    (IntOp.minsi 7999#32 (IntOp.maxsi 0#32 x)).toNat = min x.toNat 7999 := by
  obtain ⟨h31, hi⟩ := nonneg_word x hx
  unfold IntOp.minsi IntOp.maxsi
  rw [not_slt_zero x hx]
  simp only [Bool.false_eq_true, if_false]
  by_cases h : (7999#32 : BitVec 32).slt x = true
  · rw [if_pos h]
    rw [BitVec.slt_eq_decide, decide_eq_true_iff, show (7999#32 : BitVec 32).toInt = 7999 from by decide] at h
    show 7999 = min x.toNat 7999
    omega
  · rw [if_neg h]
    rw [BitVec.slt_eq_decide, decide_eq_true_iff, show (7999#32 : BitVec 32).toInt = 7999 from by decide] at h
    omega

/-- THE REFERENCE'S ROW: a non-negative id is not wrapped, and the gather's clamp of its signed reading into
    [0, 7999] is min(id, 7999) too. -/
theorem wrap_row (x : BitVec 32) (hx : 0 ≤ x.toInt) :
    min (Scalar.select (IntOp.cmpi .slt x 0#32) (IntOp.addi x 8000#32) x).toInt.toNat 7999 = min x.toNat 7999 := by
  obtain ⟨h31, hi⟩ := nonneg_word x hx
  have hc : IntOp.cmpi .slt x 0#32 = 0#1 := by
    show BitVec.ofBool (x.slt 0#32) = 0#1
    rw [not_slt_zero x hx]; rfl
  rw [hc]
  show min (if (0#1 : BitVec 1) = 1 then _ else x).toInt.toNat 7999 = _
  rw [if_neg (by decide), hi]
  rfl

/-! ## A one-hot row times a column -/

/-- The sum over `v` of [w = v] · B v, the indicator written as the kernel computes it (the equality bit, widened to
    32 bits and read as a signed integer), is `B` at `w`: every other term is `0 · B v = 0` on the extended reals,
    whatever `B v` is. -/
theorem onehot_sum {N : Nat} (hN : N ≤ 2 ^ 32) (w : BitVec 32) (h : w.toNat < N) (B : Fin N → EReal) :
    ∑ v : Fin N, ((((IntOp.cmpi .eq w (BitVec.ofNat 32 v.val)).setWidth 32).toInt : ℝ) : EReal) * B v = B ⟨w.toNat, h⟩ := by
  rw [Finset.sum_eq_single (⟨w.toNat, h⟩ : Fin N)]
  · have e : IntOp.cmpi .eq w (BitVec.ofNat 32 w.toNat) = 1#1 := by
      show BitVec.ofBool (w == BitVec.ofNat 32 w.toNat) = 1#1
      rw [show BitVec.ofNat 32 w.toNat = w from BitVec.eq_of_toNat_eq (by rw [BitVec.toNat_ofNat]; exact Nat.mod_eq_of_lt w.isLt)]
      simp
    rw [e, show ((1#1 : BitVec 1).setWidth 32).toInt = 1 from by decide]
    simp
  · intro v _ hv
    have e : IntOp.cmpi .eq w (BitVec.ofNat 32 v.val) = 0#1 := by
      show BitVec.ofBool (w == BitVec.ofNat 32 v.val) = 0#1
      have hne : w ≠ BitVec.ofNat 32 v.val := fun hw => hv (Fin.ext (by
        have := congrArg BitVec.toNat hw
        rw [BitVec.toNat_ofNat, Nat.mod_eq_of_lt (by have := v.isLt; omega)] at this
        exact this.symm))
      rw [show (w == BitVec.ofNat 32 v.val) = false from beq_eq_false_iff_ne.mpr hne]
      rfl
    rw [e, show ((0#1 : BitVec 1).setWidth 32).toInt = 0 from by decide]
    simp
  · intro hn; exact absurd (Finset.mem_univ _) hn

end RowLookup
-- ==== Proof.IdDomain.lean ====
/-
  What the precondition says of the ids: its second conjunct is `jnp.all(x >= 0)`, an `and`-reduction over all of `x`
  of the signed comparison with zero; the first is the finiteness of the table. When the whole predicate is 1,
  every id's signed reading is not negative.
-/
import proofs.«415902_j26233660244450_4_alg».proof.Pre_finite_inputs
import proofs.«415902_j26233660244450_4_alg».proof.Proof.Gen.Pre_finite_inputs
import proofs.«415902_j26233660244450_4_alg».proof.Proof.RowLookup
import Idealize.ShloMosaic.Lib.ReduceAll
import Idealize.ShloMosaic.Lib.ValueIdx

namespace Cert.IdDomain

open Idealize.ShloMosaic Idealize.ShloMosaic.ValueIdx

/-- The predicate's result has one index. -/
instance : Subsingleton Cert.Pre_finite_inputs.S_.Idx := ⟨fun a b => funext fun d => d.elim0⟩

/-- Under the precondition every id is non-negative as a signed integer: the second conjunct's reduction is 1, so
    each compared element is. -/
theorem ids_nonneg (x : IVec Cert.Pre_finite_inputs.S256x256x8 32) (tbl : FVec Ideal Cert.Pre_finite_inputs.S8000x64 .f32)
    (h : Cert.Pre_finite_inputs.fn (F := Ideal) x tbl = fun _ => 1#1) (i : Cert.Pre_finite_inputs.S256x256x8.Idx) :
    0 ≤ (x i).toInt := by
  have h0 := congrFun h ix0
  dsimp only [Cert.Pre_finite_inputs.fn] at h0
  obtain ⟨-, h2⟩ := IntOp.andi_eq_one.1 h0
  exact RowLookup.of_sge_zero (x i) (Host.reduce_andi_all _ _ _ _ ix0 h2 i)

end Cert.IdDomain
-- ==== Proof.LibPlainDot.lean ====
/-
  A plain matrix product read at an index.

  For a contraction of an M×K matrix with a K×N matrix along the shared axis (the left operand's axis 1 against the
  right operand's axis 0, no batch axes), the entry at row r and column c is the sum over k of A[r, k] · B[k, c].
  This holds for the kernel's matrix product into a zero accumulator and for the host's dot product alike, on the
  extended reals, and it is stated for ANY dimension-number record with those axis lists, so that each printed record
  is an instance by reflexivity of its lists.
-/
import Idealize.ShloMosaic.Lib.ValueIdx
import Idealize.ShloMosaic.PureOps.Ideal.Laws

noncomputable section

namespace PlainDot

open Idealize.ShloMosaic Idealize.ShloMosaic.ValueIdx

variable {M K N : Nat} {φ₁ φ₂ : FTy}

/-- The axis lists of a plain product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  have h := d.size_contr 0 (by rw [hd.lc]; exact Nat.one_pos)
  rw [h]
  simp [hd.lc]

/-- The left operand is read at row `r`, column the contraction coordinate. -/
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    have hb : (0 : Fin 2) ∉ d.lhsBatch := by rw [hd.lb]; exact List.not_mem_nil
    have hn : (0 : Fin 2) ∈ d.lhsNonContracting := by rw [hd.ln]; exact List.mem_singleton.mpr rfl
    rw [dif_neg hb, dif_pos hn]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    show (d.lhsIdx (ix2 r c) _ (1 : Fin 2)).val = k.val
    rw [d.lhsIdx_val_of_single hd.lc]
    exact contrEquiv1_symm_val d K (contr_rank d hd) (contr_size d hd) k

/-- The right operand is read at row the contraction coordinate, column `c`. -/
theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    show (d.rhsIdx (ix2 r c) _ (0 : Fin 2)).val = k.val
    rw [d.rhsIdx_val_of_single hd.rc]
    exact contrEquiv1_symm_val d K (contr_rank d hd) (contr_size d hd) k
  | ⟨1, _⟩ =>
    show (d.rhsIdx (ix2 r c) _ (1 : Fin 2)).val = c.val
    unfold DotDims.rhsIdx
    have hb : (1 : Fin 2) ∉ d.rhsBatch := by rw [hd.rb]; exact List.not_mem_nil
    have hn : (1 : Fin 2) ∈ d.rhsNonContracting := by rw [hd.rn]; exact List.mem_singleton.mpr rfl
    rw [dif_neg hb, dif_pos hn]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

/-- The contraction sum, re-indexed by the shared axis's coordinate. -/
theorem sum_eq (A : (⟨2, ![M, K]⟩ : Shape).Idx → EReal) (B : (⟨2, ![K, N]⟩ : Shape).Idx → EReal) (r : Fin M) (c : Fin N) :
    (∑ q : d.contr.Idx, A (d.lhsIdx (ix2 r c) q) * B (d.rhsIdx (ix2 r c) q)) = ∑ k : Fin K, A (ix2 r k) * B (ix2 k c) := by
  rw [← Equiv.sum_comp (contrEquiv1 d K (contr_rank d hd) (contr_size d hd)).symm]
  exact Finset.sum_congr rfl fun k _ => by rw [lhsIdx_eq d hd r c k, rhsIdx_eq d hd r c k]

/-- The kernel's matrix product into the zero accumulator, at an entry. -/
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply]
  exact sum_eq d hd A B r c

/-- The host's dot product, at an entry. -/
theorem dotGeneral_apply (prec : Option ContractPrecision) (sched : HostSchedule) (A : FVec Ideal ⟨2, ![M, K]⟩ φ₁)
    (B : FVec Ideal ⟨2, ![K, N]⟩ φ₂) (r : Fin M) (c : Fin N) :
    FloatOps.dotGeneral d prec sched A B (ix2 r c) = ∑ k : Fin K, A (ix2 r k) * B (ix2 k c) := by
  rw [Ideal.dotGeneral_apply]
  exact sum_eq d hd A B r c

end PlainDot

end
-- ==== Proof.BlockRows.lean ====
/-
  What the kernel body stores, read at an entry. For a block of 256 ids (one per row, in column 0) and the whole
  table, the body builds the 256 × 8000 matrix whose entry (p, v) is 1 when id p equals v and 0 otherwise, and
  multiplies it with the 8000 × 64 table into a zero accumulator. Entry (p, q) of the product is the sum over v of
  [id p = v] · table[v, q], which is table[id p, q] whenever id p, read unsigned, is below 8000.
-/
import proofs.«415902_j26233660244450_4_alg».proof.Proof.Gen.KernelIdeal.Skeleton
import proofs.«415902_j26233660244450_4_alg».proof.Proof.LibPlainDot
import proofs.«415902_j26233660244450_4_alg».proof.Proof.RowLookup
import Idealize.ShloMosaic.Lib.Pipeline.Value

noncomputable section

namespace Cert.KernelIdeal.BlockRows

open Cert.KernelIdeal Cert.KernelIdeal.Gen Idealize.ShloMosaic Idealize.ShloMosaic.ValueIdx

/-- The body's product at row `p`, column `q` is the table's row chosen by id `p`, at column `q`. The matrix
    product is the plain sum over the shared axis; the left factor at (p, v) is the equality bit of the id (broadcast
    along the row) with the column number (the iota), widened and converted, unchanged by the change of format; the
    one-hot sum keeps the one term where they are equal. -/
theorem pay_apply (x0 : Vec Ideal S256x1 .i32) (x1 : Vec Ideal S8000x64 .bf16) (p : Fin 256) (q : Fin 64)
    (h : (x0 (ix2 p 0)).toNat < 8000) :
    k0_pay1 (F := Ideal) x0 x1 (ix2 p q) = x1 (ix2 ⟨(x0 (ix2 p 0)).toNat, h⟩ q) := by
  unfold k0_pay1
  refine (PlainDot.matmul_zero_apply (M := 256) (K := 8000) (N := 64) _ ⟨rfl, rfl, rfl, rfl, rfl, rfl⟩ none _ _ p q).trans ?_
  refine (Finset.sum_congr rfl (fun k _ => ?_)).trans
    (RowLookup.onehot_sum (N := 8000) (by norm_num) (x0 (ix2 p 0)) h (fun v => x1 (ix2 v q)))
  simp only [shapeCast_self]
  refine congrArg (· * x1 (ix2 k q)) ?_
  show ((((IntOp.cmpi .eq (broadcastTo S256x8000 x0 _ (ix2 p k)) (iota .tc S256x8000 32 [1] _ (ix2 p k))).setWidth 32).toInt : ℝ) : EReal) = _
  rw [iota_single_apply, broadcastTo_apply x0 _ (ix2 p k) (ix2 p (0 : Fin 1)) (fun a => match a with
    | ⟨0, _⟩ => by show p.val = if (256 : Nat) = 1 then 0 else p.val; rw [if_neg (by decide)]
    | ⟨1, _⟩ => by show (0 : Nat) = if (1 : Nat) = 1 then 0 else _; rw [if_pos rfl])]

end Cert.KernelIdeal.BlockRows

end
-- ==== Proof.KernelRows.lean ====
/-
  The kernel's result array. The ids are clamped into [0, 7999] and laid out flat, one per row of a [524288, 1] array
  (flat position r holds id (r / 2048, r / 8 % 256, r % 8)); the table keeps its values under the change of format.
  Grid point t works on rows 256 t … 256 t + 255: its block of ids and the whole table give, by the one-hot product,
  the table's rows those ids select. The 2048 blocks tile the [524288, 64] output, so the whole array ends holding, at
  (r, q), the table at (min(id r, 7999), q) once no id is negative. The two reshapes after the region only re-index it.
-/
import proofs.«415902_j26233660244450_4_alg».proof.Proof.Gen.KernelIdeal.Frame
import proofs.«415902_j26233660244450_4_alg».proof.Proof.BlockRows
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal

noncomputable section

open Idealize.ShloMosaic Idealize.ShloMosaic.TcCoe Idealize.SL.Sem
open Idealize.ShloMosaic.Pipeline (Dat)

namespace Cert.KernelIdeal.Rows

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-- The zero offsets of a whole-buffer load or store, however spelt. -/
theorem hz : (![0, 0] : Fin 2 → Nat) = fun _ => 0 := funext fun a => by fin_cases a <;> rfl

/-- What the region finds in its first operand: the clamped ids, flattened. -/
theorem V_ids (c : Dev nD) : (V m c main_v1 : S524288x1.Idx → BitVec 32) =
    shapeCast S524288x1 (minsi (broadcastInDim S256x256x8 ![] bcast_S_S256x256x8 (constantI S_ 32 7999#32))
      (maxsi (broadcastInDim S256x256x8 ![] bcast_S_S256x256x8 (constantI S_ 32 0#32)) (m ((c : Thread nD τ).loc main_arg0))))
      shapeCasts_S256x256x8_S524288x1 := by
  dsimp only [V, V0]
  simp only [hostOps0, hostOps0_1, hostOps0_2, List.flatten_cons, List.flatten_nil, List.append_nil, List.cons_append, List.nil_append]
  after_results
  rfl

/-- What it finds in its second operand: the table itself (a change of format keeps the value). -/
theorem V_tbl (c : Dev nD) : (V m c main_v2 : S8000x64.Idx → EReal) = m ((c : Thread nD τ).loc main_arg1) := by
  dsimp only [V, V0]
  simp only [hostOps0, hostOps0_1, hostOps0_2, List.flatten_cons, List.flatten_nil, List.append_nil, List.cons_append, List.nil_append]
  after_results
  rfl

/-- The id that flat position `r` holds, by its three coordinates. -/
abbrev unflat (r : Fin 524288) : S256x256x8.Idx :=
  ix3 ⟨r.val / 2048, by have := r.isLt; omega⟩ ⟨r.val / 8 % 256, by have := r.isLt; omega⟩ ⟨r.val % 8, by have := r.isLt; omega⟩

/-- The flattened clamped ids at row `r`: the clamp of the id at `r`'s coordinates (equal row-major positions). -/
theorem ids_apply (c : Dev nD) (r : Fin 524288) :
    (V m c main_v1 : S524288x1.Idx → BitVec 32) (ix2 r 0)
      = IntOp.minsi 7999#32 (IntOp.maxsi 0#32 ((m ((c : Thread nD τ).loc main_arg0) : S256x256x8.Idx → BitVec 32) (unflat r))) := by
  rw [V_ids]
  refine (shapeCast_apply _ _ (ix2 r (0 : Fin 1)) (unflat r) ?_).trans rfl
  rw [Shape.rowMajor_val_three, Shape.rowMajor_val_two]
  show ((r.val / 2048) * 256 + r.val / 8 % 256) * 8 + r.val % 8 = r.val * 1 + 0
  have := r.isLt; omega

/-- The printed index maps over the grid: the ids' and the output's block index is the point itself, the table's is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s block of ids at row `p` is flat position 256 t + p. -/
theorem ids_block (c : Dev nD) (t : Fin cfg0.N) (p : Fin 256) :
    (iblk m c 0 t : Vec Ideal S256x1 .i32) (ix2 p 0)
      = (V m c main_v1 : S524288x1.Idx → BitVec 32) (ix2 ⟨t.val * 256 + p.val, by have := t.isLt; have hN : cfg0.N = 2048 := N_0; have := p.isLt; omega⟩ 0) := by
  obtain ⟨e0, e1, -⟩ := idx_facts t
  unfold iblk
  rw [View.read_apply]
  show V m c main_v1 _ = V m c main_v1 _
  congr 1
  funext a
  apply Fin.ext
  match a with
  | ⟨0, _⟩ => show win0_0.index t 0 * 256 + 1 * p.val = t.val * 256 + p.val; rw [e0]; omega
  | ⟨1, _⟩ => show win0_0.index t 1 * 1 + 1 * 0 = 0; rw [e1]

/-- Every point's block of the table is the whole table. -/
theorem tbl_block (c : Dev nD) (t : Fin cfg0.N) (y : S8000x64.Idx) :
    (iblk m c 1 t : Vec Ideal S8000x64 .bf16) y = (m ((c : Thread nD τ).loc main_arg1) : S8000x64.Idx → EReal) y := by
  obtain ⟨-, -, e0, e1, -⟩ := idx_facts t
  rw [← V_tbl m c]
  unfold iblk
  rw [View.read_apply]
  show V m c main_v2 _ = V m c main_v2 _
  congr 1
  funext a
  apply Fin.ext
  match a with
  | ⟨0, _⟩ => show win0_1.index t 0 * 8000 + 1 * (y 0).val = (y 0).val; rw [e0]; omega
  | ⟨1, _⟩ => show win0_1.index t 1 * 64 + 1 * (y 1).val = (y 1).val; rw [e1]; omega

/-- The table row that the id at flat position `r` selects: min(id, 7999). -/
abbrev rowOf (c : Dev nD) (r : Fin 524288) : Fin 8000 :=
  ⟨min ((m ((c : Thread nD τ).loc main_arg0) : S256x256x8.Idx → BitVec 32) (unflat r)).toNat 7999, by omega⟩

/-- The gathered rows, one per flat position: entry (r, q) is the table at (rowOf r, q). -/
def gathered (c : Dev nD) : Buf (Elt Ideal) ((c : Thread nD τ).loc main_v3) :=
  fun i : S524288x64.Idx => (m ((c : Thread nD τ).loc main_arg1) : S8000x64.Idx → EReal) (ix2 (rowOf m c (i 0)) (i 1))

/-- The body's product at any entry of the block, when every id of the block is below 8000: the selected row. -/
theorem block_rows (X0 : Vec Ideal S256x1 .i32) (X1 : Vec Ideal S8000x64 .bf16)
    (hb : ∀ p : Fin 256, (X0 (ix2 p 0)).toNat < 8000) (y : S256x64.Idx) :
    k0_pay1 (F := Ideal) X0 X1 y = X1 (ix2 ⟨(X0 (ix2 (⟨(y 0).val, idx2_lt0 y⟩ : Fin 256) 0)).toNat, hb _⟩ (⟨(y 1).val, idx2_lt1 y⟩ : Fin 64)) := by
  obtain ⟨p, q, rfl⟩ : ∃ (p : Fin 256) (q : Fin 64), y = ix2 p q := ⟨y 0, y 1, eq_ix2 y⟩
  exact BlockRows.pay_apply X0 X1 p q (hb p)

/-- WHAT POINT `t` WRITES BACK is block `t` of the gathered rows: entry (p, q) of its product is the table at the row
    chosen by flat position 256 t + p, which is where the output's block puts it. -/
theorem flushed_eq (c : Dev nD)
    (hpos : ∀ i : S256x256x8.Idx, 0 ≤ ((m ((c : Thread nD τ).loc main_arg0) : S256x256x8.Idx → BitVec 32) i).toInt)
    (t : Fin cfg0.N) :
    (dats m 0 c).flushed 2 t = ((cfg0.win 2).blk t).view.read (Elt Ideal) (gathered m c) := by
  obtain ⟨-, -, -, -, e0, e1⟩ := idx_facts t
  have hN : cfg0.N = 2048 := N_0
  have ht : t.val < 2048 := hN ▸ t.isLt
  have hb : ∀ p : Fin 256, ((iblk m c 0 t : Vec Ideal S256x1 .i32) (ix2 p 0)).toNat < 8000 := fun p => by
    rw [ids_block m c t p, ids_apply, RowLookup.clip_toNat _ (hpos _)]
    exact Nat.lt_succ_of_le (Nat.min_le_right _ _)
  show (cfg0.win 2).cut (grid0.coords t) ((dats m 0 c).after 2 t) = _
  rw [after0_2]
  unfold out0_2
  rw [View.canon_unit_zero hz]
  simp only [View.ld_unit_zero (S := S256x1) hz, View.ld_unit_zero (S := S8000x64) hz]
  funext j
  rw [View.read_apply]
  have hj0 : (j 0).val < 256 := (j 0).isLt
  have hj1 : (j 1).val < 64 := (j 1).isLt
  have hR : t.val * 256 + (j 0).val < 524288 := by omega
  have hemb : (((cfg0.win 2).blk t).view.emb j : S524288x64.Idx)
      = ix2 (⟨t.val * 256 + (j 0).val, hR⟩ : Fin 524288) (⟨(j 1).val, hj1⟩ : Fin 64) := by
    funext a
    apply Fin.ext
    match a with
    | ⟨0, _⟩ => show win0_2.index t 0 * 256 + 1 * (j 0).val = t.val * 256 + (j 0).val; rw [e0]; omega
    | ⟨1, _⟩ => show win0_2.index t 1 * 64 + 1 * (j 1).val = (j 1).val; rw [e1]; omega
  rw [hemb]
  refine (block_rows (iblk m c 0 t) (iblk m c 1 t) hb j).trans ?_
  rw [tbl_block]
  have hrow : (⟨((iblk m c 0 t : Vec Ideal S256x1 .i32) (ix2 (⟨(j 0).val, hj0⟩ : Fin 256) 0)).toNat, hb _⟩ : Fin 8000)
      = rowOf m c ⟨t.val * 256 + (j 0).val, hR⟩ := by
    apply Fin.ext
    show ((iblk m c 0 t : Vec Ideal S256x1 .i32) (ix2 (⟨(j 0).val, hj0⟩ : Fin 256) 0)).toNat
      = min ((m ((c : Thread nD τ).loc main_arg0) : S256x256x8.Idx → BitVec 32) (unflat ⟨t.val * 256 + (j 0).val, hR⟩)).toNat 7999
    rw [ids_block m c t _, ids_apply, RowLookup.clip_toNat _ (hpos _)]
  rw [hrow]
  rfl

/-- An index of the output is in point `t`'s block iff each coordinate is in the block's range. -/
theorem mem_blk (t : Fin cfg0.N) (i : S524288x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v3).slice (win0_2.rect t)).set ↔ _
  rw [View.set_slice_whole, Rect.mem_set_unit]
  exact Iff.rfl

/-- Every row `r` of the output is in the block of point `r / 256`. -/
theorem cover (i : S524288x64.Idx) :
    ∃ t : Fin cfg0.N, (cfg0.win 2).flush t = true ∧ i ∈ ((cfg0.win 2).blk t).view.set := by
  have hN : cfg0.N = 2048 := N_0
  have hi0 : (i 0).val < 524288 := (i 0).isLt
  have hi1 : (i 1).val < 64 := (i 1).isLt
  have ht : (i 0).val / 256 < cfg0.N := by rw [hN]; omega
  obtain ⟨-, -, -, -, e0, e1⟩ := idx_facts ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ 0 * 256 ≤ (i 0).val ∧ (i 0).val < win0_2.index ⟨(i 0).val / 256, ht⟩ 0 * 256 + 256
    rw [e0]; show (i 0).val / 256 * 256 ≤ (i 0).val ∧ (i 0).val < (i 0).val / 256 * 256 + 256; omega
  | ⟨1, _⟩ =>
    show win0_2.index ⟨(i 0).val / 256, ht⟩ 1 * 64 ≤ (i 1).val ∧ (i 1).val < win0_2.index ⟨(i 0).val / 256, ht⟩ 1 * 64 + 64
    rw [e1]; omega

/-- So the output array ends holding the gathered rows. -/
theorem final_rows (c : Dev nD)
    (hpos : ∀ i : S256x256x8.Idx, 0 ≤ ((m ((c : Thread nD τ).loc main_arg0) : S256x256x8.Idx → BitVec 32) i).toInt) :
    (dats m 0 c).arrAt 2 cfg0.N = gathered m c :=
  (dats m 0 c).arrAt_eq_of_cover 2 (gathered m c) (fun t _ => flushed_eq m c hpos t) cover

/-- The program's result: the gathered rows viewed as [256, 256, 8, 64], then as [256, 256, 512]. -/
def result (c : Dev nD) : Buf (Elt Ideal) ((c : Thread nD τ).loc main_v5) :=
  shapeCast S256x256x512 (shapeCast S256x256x8x64 (gathered m c : S524288x64.Idx → EReal) shapeCasts_S524288x64_S256x256x8x64)
    shapeCasts_S256x256x8x64_S256x256x512

/-- The two reshapes after the region, applied to the final output array. -/
theorem tail_eq (c : Dev nD)
    (hpos : ∀ i : S256x256x8.Idx, 0 ≤ ((m ((c : Thread nD τ).loc main_arg0) : S256x256x8.Idx → BitVec 32) i).toInt) :
    Pipeline.afterTail₀ cfgs (dats m) 0 (V0 m) [hostOps1] c main_v5 = result m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v3)
      = gathered m c :=
    (Pipeline.withArrays_arr spec0 launch0.win.arr_inj c _ _ 2).trans (final_rows m c hpos)
  rw [e]
  rfl

/-- THE RUN, READ: the result buffer ends at `result`, the arguments unchanged. -/
theorem run (hpos : ∀ (c : Dev nD) (i : S256x256x8.Idx), 0 ≤ ((m ((c : Thread nD τ).loc main_arg0) : S256x256x8.Idx → BitVec 32) i).toInt) :
    θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 (by decide) (by decide))).trans (tail_eq m c (hpos c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

/-- The gathered rows viewed as [256, 256, 8, 64]: entry (a, b, l, q) sits at flat position (a · 256 + b) · 8 + l, whose
    id is id[a, b, l]. -/
theorem rows4_apply (c : Dev nD) (a b : Fin 256) (l : Fin 8) (q : Fin 64) :
    shapeCast S256x256x8x64 (gathered m c : S524288x64.Idx → EReal) shapeCasts_S524288x64_S256x256x8x64 (ix4 a b l q)
      = (m ((c : Thread nD τ).loc main_arg1) : S8000x64.Idx → EReal)
          (ix2 (⟨min ((m ((c : Thread nD τ).loc main_arg0) : S256x256x8.Idx → BitVec 32) (ix3 a b l)).toNat 7999, by omega⟩ : Fin 8000) q) := by
  have h0 : a.val < 256 := a.isLt
  have h1 : b.val < 256 := b.isLt
  have h2 : l.val < 8 := l.isLt
  have h3 : q.val < 64 := q.isLt
  have hR : (a.val * 256 + b.val) * 8 + l.val < 524288 := by omega
  refine (shapeCast_apply _ _ (ix4 a b l q) (ix2 (⟨(a.val * 256 + b.val) * 8 + l.val, hR⟩ : Fin 524288) q) ?_).trans ?_
  · rw [Shape.rowMajor_val_two, Shape.rowMajor_val_four]
    rfl
  · have hu : unflat ⟨(a.val * 256 + b.val) * 8 + l.val, hR⟩ = ix3 a b l := by
      funext d
      apply Fin.ext
      match d with
      | ⟨0, _⟩ => show ((a.val * 256 + b.val) * 8 + l.val) / 2048 = a.val; omega
      | ⟨1, _⟩ => show ((a.val * 256 + b.val) * 8 + l.val) / 8 % 256 = b.val; omega
      | ⟨2, _⟩ => show ((a.val * 256 + b.val) * 8 + l.val) % 8 = l.val; omega
    show (m ((c : Thread nD τ).loc main_arg1) : S8000x64.Idx → EReal) (ix2 (rowOf m c ⟨(a.val * 256 + b.val) * 8 + l.val, hR⟩) q) = _
    refine congrArg (fun r : Fin 8000 => (m ((c : Thread nD τ).loc main_arg1) : S8000x64.Idx → EReal) (ix2 r q)) (Fin.ext ?_)
    show min ((m ((c : Thread nD τ).loc main_arg0) : S256x256x8.Idx → BitVec 32) (unflat ⟨(a.val * 256 + b.val) * 8 + l.val, hR⟩)).toNat 7999 = _
    rw [hu]

end Cert.KernelIdeal.Rows

end
-- ==== Proof.ReferenceLookup.lean ====
/-
  The reference, read at an index. It adds 8000 to the negative ids, views the ids as [256, 256, 8, 1] start indices and
  gathers rows of the table: result entry (a, b, l, q) is the table at row (the start index at (a, b, l, 0), read as a
  signed integer and clamped into [0, 7999]) and column q. For an id that is not negative nothing is added, and the row
  is min(id, 7999).
-/
import proofs.«415902_j26233660244450_4_alg».proof.Proof.Gen.ReferenceIdeal.Run
import proofs.«415902_j26233660244450_4_alg».proof.Proof.Gen.ReferenceIdeal.Read
import proofs.«415902_j26233660244450_4_alg».proof.Proof.RowLookup
import Idealize.ShloMosaic.Lib.Pipeline.Value
import Idealize.ShloMosaic.Lib.ValueIdx

noncomputable section

namespace Cert.ReferenceIdeal.Lookup

open Cert.ReferenceIdeal Cert.ReferenceIdeal.Gen Idealize.ShloMosaic Idealize.ShloMosaic.ValueIdx

local notation "gd" => gather_S8000x64_S256x256x8x1_S256x256x8x64_3_0_n_n_0_3_164

/-- THE GATHER AT (a, b, l, q): on the table's row axis the one start-index component, read signed and clamped so that
    the one-row slice fits; on the column axis the result's last coordinate (the slice is a whole row). -/
theorem gather_apply {α : Type} (x1 : S8000x64.Idx → α) (idx : IVec S256x256x8x1 32) (a b : Fin 256) (l : Fin 8) (q : Fin 64) :
    Host.gather gd x1 idx (ix4 a b l q)
      = x1 (ix2 (⟨min (idx (ix4 a b l (0 : Fin 1))).toInt.toNat 7999, by omega⟩ : Fin 8000) q) := by
  unfold Host.gather
  congr 1
  funext d
  apply Fin.ext
  match d with
  | ⟨0, _⟩ =>
    show GatherDims.start gd (ix4 a b l q) idx 0 + GatherDims.batchCoord gd (ix4 a b l q) 0 + GatherDims.offCoord gd (ix4 a b l q) 0 = min _ 7999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd (ix4 a b l q) ⟨List.idxOf (0 : Fin 2) (GatherDims.startIndexMap gd),
        List.idxOf_lt_length_iff.2 (List.mem_singleton.mpr rfl)⟩ = ix4 a b l (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨1, _⟩ =>
    show GatherDims.start gd (ix4 a b l q) idx 1 + GatherDims.batchCoord gd (ix4 a b l q) 1 + GatherDims.offCoord gd (ix4 a b l q) 1 = q.val
    rw [GatherDims.batchCoord_eq_zero _ _ _ List.not_mem_nil]
    unfold GatherDims.start
    rw [dif_neg (show (1 : Fin 2) ∉ GatherDims.startIndexMap gd from
      fun h => absurd (List.mem_singleton.mp h) (by decide : ¬((1 : Fin 2) = 0)))]
    unfold GatherDims.offCoord
    rw [dif_pos (show (1 : Fin 2) ∈ GatherDims.sKept gd from (GatherDims.mem_sKept _ _).mpr
      ⟨fun h => absurd (List.mem_singleton.mp h) (by decide : ¬((1 : Fin 2) = 0)), List.not_mem_nil⟩)]
    simp only [Nat.zero_add]
    rfl

/-- THE LOOKED-UP ROWS: when no id is negative, the gathered array at (a, b, l, q) is the table at row
    min(id[a, b, l], 7999), column q. -/
theorem looked_up (x0 : IVec S256x256x8 32) (x1 : FVec Ideal S8000x64 .f32) (hpos : ∀ i : S256x256x8.Idx, 0 ≤ (x0 i).toInt)
    (a b : Fin 256) (l : Fin 8) (q : Fin 64) :
    Read.val_main_v6 (F := Ideal) x0 x1 (ix4 a b l q)
      = x1 (ix2 (⟨min (x0 (ix3 a b l)).toNat 7999, by omega⟩ : Fin 8000) q) := by
  unfold Read.val_main_v6
  rw [gather_apply]
  refine congrArg (fun r : Fin 8000 => x1 (ix2 r q)) (Fin.ext ?_)
  show min (Read.val_main_v5 (F := Ideal) x0 (ix4 a b l (0 : Fin 1))).toInt.toNat 7999 = min (x0 (ix3 a b l)).toNat 7999
  have hi : Read.idx_main_v5 (ix4 a b l (0 : Fin 1)) = ix3 a b l := by
    funext d
    match d with
    | ⟨0, _⟩ => rfl
    | ⟨1, _⟩ => rfl
    | ⟨2, _⟩ => rfl
  rw [Read.val_main_v5_apply, hi, Read.val_main_v4_apply, Read.val_main_v1_apply, Read.val_main_v3_apply,
    Read.val_main_v0_apply, Read.val_main_v2_apply, Read.val_main_c_apply, Read.val_main_c_0_apply]
  exact RowLookup.wrap_row _ (hpos _)

end Cert.ReferenceIdeal.Lookup

end
-- ==== Proof.lean ====
/-
  The certificate of an embedding lookup: out[t, f, l·64 + d] = table[id[t, f, l], d] for a [8000, 64] table and
  [256, 256, 8] ids that are not negative.

  The kernel clamps every id into [0, 7999], lays the ids out flat, and for 256 ids at a time multiplies their one-hot
  [256, 8000] matrix with the table (the table's values unchanged by the narrower format, the products summed exactly):
  each row of the product is the table's row of that id. The reference adds 8000 to a negative id and gathers rows of
  the table, the gather clamping the row it reads into [0, 7999]. For an id that is not negative both read row
  min(id, 7999); the remaining reshapes on both sides keep row-major positions. Zero times anything is zero on the
  extended reals, so the table's values play no part in the one-hot sum and its finiteness is never used.

  The three frames are the generated ones (the reference's is its generated run with the result dropped); the
  idealization rewrote nothing, so `preserves` is trivial; `algebraic` joins the kernel's run (KernelRows) and the
  reference's (ReferenceLookup) at one array, entry by entry.
-/
import proofs.«415902_j26233660244450_4_alg».proof.Defs
import proofs.«415902_j26233660244450_4_alg».proof.Proof.Gen.Kernel
import proofs.«415902_j26233660244450_4_alg».proof.Proof.Gen.Kernel.Skeleton
import proofs.«415902_j26233660244450_4_alg».proof.Proof.Gen.Kernel.Launch
import proofs.«415902_j26233660244450_4_alg».proof.Proof.Gen.Kernel.Points
import proofs.«415902_j26233660244450_4_alg».proof.Proof.Gen.Kernel.Frame
import proofs.«415902_j26233660244450_4_alg».proof.Proof.Gen.KernelIdeal
import proofs.«415902_j26233660244450_4_alg».proof.Proof.Gen.KernelIdeal.Skeleton
import proofs.«415902_j26233660244450_4_alg».proof.Proof.Gen.KernelIdeal.Launch
import proofs.«415902_j26233660244450_4_alg».proof.Proof.Gen.KernelIdeal.Points
import proofs.«415902_j26233660244450_4_alg».proof.Proof.Gen.KernelIdeal.Frame
import proofs.«415902_j26233660244450_4_alg».proof.Proof.Gen.ReferenceIdeal
import proofs.«415902_j26233660244450_4_alg».proof.Proof.Gen.ReferenceIdeal.Run
import proofs.«415902_j26233660244450_4_alg».proof.Proof.Gen.ReferenceIdeal.Read
import proofs.«415902_j26233660244450_4_alg».proof.Proof.Gen.Pre_finite_inputs
import proofs.«415902_j26233660244450_4_alg».proof.Proof.IdDomain
import proofs.«415902_j26233660244450_4_alg».proof.Proof.KernelRows
import proofs.«415902_j26233660244450_4_alg».proof.Proof.ReferenceLookup
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames and the idealization -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-! ## The two results are one array -/

/-- Under the precondition no id is negative. -/
theorem ids_nonneg (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S256x256x8.Idx) :
    0 ≤ ((m ((c.tc : Thread Cert.KernelIdeal.nD Cert.KernelIdeal.τ).loc Cert.KernelIdeal.main_arg0) : Cert.KernelIdeal.S256x256x8.Idx → BitVec 32) i).toInt :=
  Cert.IdDomain.ids_nonneg _ _ (hpre c) i

/-- Before the last reshape the reference's gathered array and the kernel's gathered rows, viewed as [256, 256, 8, 64],
    agree entry by entry: both are the table at row min(id[a, b, l], 7999), column q. -/
theorem rows_eq (m : (ℓ : Loc Cert.KernelIdeal.nD Cert.KernelIdeal.τ Cert.KernelIdeal.sig) → Buf (Elt Ideal) ℓ)
    (c : Dev Cert.KernelIdeal.nD)
    (hpos : ∀ i : Cert.KernelIdeal.S256x256x8.Idx, 0 ≤ ((m ((c.tc : Thread Cert.KernelIdeal.nD Cert.KernelIdeal.τ).loc Cert.KernelIdeal.main_arg0) : Cert.KernelIdeal.S256x256x8.Idx → BitVec 32) i).toInt) :
    Cert.ReferenceIdeal.Read.val_main_v6 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = shapeCast Cert.KernelIdeal.S256x256x8x64 (Cert.KernelIdeal.Rows.gathered m c : Cert.KernelIdeal.S524288x64.Idx → EReal)
          Cert.KernelIdeal.Gen.shapeCasts_S524288x64_S256x256x8x64 := by
  funext j
  obtain ⟨a, b, l, q, rfl⟩ : ∃ (a b : Fin 256) (l : Fin 8) (q : Fin 64), j = ix4 a b l q := ⟨j 0, j 1, j 2, j 3, eq_ix4 j⟩
  rw [Cert.ReferenceIdeal.Lookup.looked_up _ _ hpos, Cert.KernelIdeal.Rows.rows4_apply]

/-- Both programs run, and end with one result: the kernel's gathered rows reshaped, which is the reference's gathered
    array reshaped. -/
theorem algebraic : Cert.algebraic_KernelIdeal_ReferenceIdeal := by
  intro m ρ m' ρ' hpre hagree
  have hpos := ids_nonneg m hpre
  refine ⟨fun c => Cert.KernelIdeal.Rows.result m c, Cert.KernelIdeal.Rows.run m ρ hpos, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v7_eq]
  unfold Cert.ReferenceIdeal.Read.val_main_v7 Cert.KernelIdeal.Rows.result
  rw [rows_eq m c (hpos c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
